-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x5 : Shape := ⟨2, ![100000, 5]⟩
abbrev S2x3200000 : Shape := ⟨2, ![2, 3200000]⟩
abbrev S5x16 : Shape := ⟨2, ![5, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x5 : S_.BroadcastsInDim S100000x5 (![] : Fin 0 → Fin S100000x5.rank)
  reducesTo_S100000x5_S_d0_1 : S100000x5.ReducesTo [0, 1] S_
  h_S_ : 0 < S_.numel
  bcast_S_S5x16 : S_.BroadcastsInDim S5x16 (![] : Fin 0 → Fin S5x16.rank)
  reducesTo_S5x16_S_d0_1 : S5x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S16x1 1) : IVec S_ 1 :=
  let main_c_5 : IVec S_ 1 := constantI S_ 1 1#1
  let main_v17 : IVec S_ 1 := (fun x v => Host.reduce IntOp.andi x v reducesTo_S16x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x5 .f32) (main_arg1 : IVec S2x3200000 32) (main_arg2 : FVec F S5x16 .f32) (main_arg3 : FVec F S16 .f32) (main_arg4 : FVec F S16x1 .f32) (main_arg5 : FVec F S1 .f32) : IVec S_ 1 :=
  let main_v0 : FVec F S100000x5 .f32 := Host.absf main_arg0
  let main_cst : FVec F S_ .f32 := constant S_ .f32 0x7F800000#32
  let main_v1 : FVec F S100000x5 .f32 := broadcastInDim S100000x5 ![] bcast_S_S100000x5 main_cst
  let main_v2 : IVec S100000x5 1 := cmpf .olt main_v0 main_v1
  let main_c : IVec S_ 1 := constantI S_ 1 1#1
  let main_v3 : IVec S_ 1 := (fun x v => Host.reduce IntOp.andi x v reducesTo_S100000x5_S_d0_1 h_S_) main_v2 main_c
  let main_v4 : FVec F S5x16 .f32 := Host.absf main_arg2
  let main_cst_0 : FVec F S_ .f32 := constant S_ .f32 0x7F800000#32
  let main_v5 : FVec F S5x16 .f32 := broadcastInDim S5x16 ![] bcast_S_S5x16 main_cst_0
  let main_v6 : IVec S5x16 1 := cmpf .olt main_v4 main_v5
  let main_c_1 : IVec S_ 1 := constantI S_ 1 1#1
  let main_v7 : IVec S_ 1 := (fun x v => Host.reduce IntOp.andi x v reducesTo_S5x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x1 .f32 := Host.absf main_arg4
  let main_cst_4 : FVec F S_ .f32 := constant S_ .f32 0x7F800000#32
  let main_v15 : FVec F S16x1 .f32 := broadcastInDim S16x1 ![] bcast_S_S16x1 main_cst_4
  let main_v16 : IVec S16x1 1 := cmpf .olt main_v14 main_v15
  fn_part1 (F := F) main_arg5 main_v13 main_v16
-- ==== Kernel.lean ====
abbrev S100000x5 : Shape := ⟨2, ![100000, 5]⟩
abbrev S2x3200000 : Shape := ⟨2, ![2, 3200000]⟩
abbrev S5x16 : Shape := ⟨2, ![5, 16]⟩
abbrev S16 : Shape := ⟨1, ![16]⟩
abbrev S16x1 : Shape := ⟨2, ![16, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x5 : Shape := ⟨2, ![5000, 5]⟩
abbrev S5000x16 : Shape := ⟨2, ![5000, 16]⟩
abbrev S3300000x16 : Shape := ⟨2, ![3300000, 16]⟩
abbrev S1x16 : Shape := ⟨2, ![1, 16]⟩
abbrev S100000x1 : Shape := ⟨2, ![100000, 1]⟩
abbrev S5000x1 : Shape := ⟨2, ![5000, 1]⟩
abbrev S1x1 : Shape := ⟨2, ![1, 1]⟩

abbrev nBuf : Space → Nat
  | .hbm => 86
  | .vmem => 20
  | .smem => 0
  | _ => 0

abbrev bufTy : (tb : Table) → Fin (tcTables nBuf tb) → BufTy
  | .hbm, ⟨0, _⟩ => ⟨S100000x5, .f32⟩
  | .hbm, ⟨1, _⟩ => ⟨S2x3200000, .i32⟩
  | .hbm, ⟨2, _⟩ => ⟨S5x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x1, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x1, .f32⟩
  | .hbm, ⟨78, _⟩ => ⟨S3300000x1, .f32⟩
  | .hbm, ⟨79, _⟩ => ⟨S3300000x1, .f32⟩
  | .hbm, ⟨80, _⟩ => ⟨S_, .f32⟩
  | .hbm, ⟨81, _⟩ => ⟨S100000x1, .f32⟩
  | .hbm, ⟨82, _⟩ => ⟨S3300000x1, .i32⟩
  | .hbm, ⟨83, _⟩ => ⟨S100000x1, .f32⟩
  | .hbm, ⟨84, _⟩ => ⟨S1x1, .f32⟩
  | .hbm, ⟨85, _⟩ => ⟨S100000x1, .f32⟩
  | .local _ .vmem, ⟨0, _⟩ => ⟨S5000x5, .f32⟩
  | .local _ .vmem, ⟨1, _⟩ => ⟨S5000x5, .f32⟩
  | .local _ .vmem, ⟨2, _⟩ => ⟨S5x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S1x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S16x1, .f32⟩
  | .local _ .vmem, ⟨13, _⟩ => ⟨S5000x1, .f32⟩
  | .local _ .vmem, ⟨14, _⟩ => ⟨S5000x1, .f32⟩
  | .local _ .vmem, ⟨15, _⟩ => ⟨S5000x1, .f32⟩
  | .local _ .vmem, ⟨16, _⟩ => ⟨S5000x1, .f32⟩
  | .local _ .vmem, ⟨17, _⟩ => ⟨S1x1, .f32⟩
  | .local _ .vmem, ⟨18, _⟩ => ⟨S5000x1, .f32⟩
  | .local _ .vmem, ⟨19, _⟩ => ⟨S5000x1, .f32⟩
  | _, _ => ⟨S100000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x5_S5000x5_0_0 : ∀ a, (![0, 0] : Fin 2 → Nat) a + S5000x5.size a ≤ S5000x5.size a
  h_S5000x5 : 0 < S5000x5.numel
  bitsLt_bf16_f32 : FTy.bits .bf16 < FTy.bits .f32
  inb_S5x16_S5x16_0_0 : ∀ a, (![0, 0] : Fin 2 → Nat) a + S5x16.size a ≤ S5x16.size a
  h_S5x16 : 0 < S5x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x1_S16x1_0_0 : ∀ a, (![0, 0] : Fin 2 → Nat) a + S16x1.size a ≤ S16x1.size a
  h_S16x1 : 0 < S16x1.numel
  inb_S5000x1_S5000x1_0_0 : ∀ a, (![0, 0] : Fin 2 → Nat) a + S5000x1.size a ≤ S5000x1.size a
  h_S5000x1 : 0 < S5000x1.numel
  bcast_S_S100000x1 : S_.BroadcastsInDim S100000x1 (![] : Fin 0 → Fin S100000x1.rank)
  shapeCasts_S1_S1x1 : S1.ShapeCasts S1x1
  shapeCasts_S5000x1_S5000x1 : S5000x1.ShapeCasts S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x5_S5x16_S5000x16_1_0_0_1_n_n_wf : DotDims.WF S5000x5 S5x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x1_S5000x1_1_0_0_1_n_n_wf : DotDims.WF S5000x16 S16x1 S5000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x5.size a ≤ S100000x5.size a
  hwx0_0 : ∀ i : grid0.Coords, EltTy.bits .f32 = 32 ∨ (Rect.block (s := S100000x5) S5000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x16.size a ≤ S5x16.size a
  hwx0_1 : ∀ i : grid0.Coords, EltTy.bits .f32 = 32 ∨ (Rect.block (s := S5x16) S5x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S100000x16.size a
  hwx1_2 : ∀ i : grid1.Coords, EltTy.bits .f32 = 32 ∨ (Rect.block (s := S100000x16) S5000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x1.size a ≤ S16x1.size a
  hwx2_1 : ∀ i : grid2.Coords, EltTy.bits .f32 = 32 ∨ (Rect.block (s := S16x1) S16x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x1.size a ≤ S100000x1.size a
  hwx3_0 : ∀ i : grid3.Coords, EltTy.bits .f32 = 32 ∨ (Rect.block (s := S100000x1) S5000x1.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x1.size a ≤ S1x1.size a
  hwx3_1 : ∀ i : grid3.Coords, EltTy.bits .f32 = 32 ∨ (Rect.block (s := S1x1) S1x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x5_S5x16_S5000x16_1_0_0_1_n_n : DotDims S5000x5 S5x16 S5000x16 where
  lhsContracting := [1]
  rhsContracting := [0]
  lhsNonContracting := [0]
  rhsNonContracting := [1]
  lhsBatch := []
  rhsBatch := []
  wf := dot_S5000x5_S5x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x1_S5000x1_1_0_0_1_n_n : DotDims S5000x16 S16x1 S5000x1 where
  lhsContracting := [1]
  rhsContracting := [0]
  lhsNonContracting := [0]
  rhsNonContracting := [1]
  lhsBatch := []
  rhsBatch := []
  wf := dot_S5000x16_S16x1_S5000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

abbrev win0_0 : Pipeline.Window sig grid0 :=
  Pipeline.Window.ofSpec (Memref.whole main_arg0) S5000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S5000x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x5 : Shape := ⟨2, ![100000, 5]⟩
abbrev S2x3200000 : Shape := ⟨2, ![2, 3200000]⟩
abbrev S5x16 : Shape := ⟨2, ![5, 16]⟩
abbrev S16 : Shape := ⟨1, ![16]⟩
abbrev S16x1 : Shape := ⟨2, ![16, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x16 : Shape := ⟨2, ![100000, 16]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x1 : Shape := ⟨2, ![100000, 1]⟩
abbrev S1x1 : Shape := ⟨2, ![1, 1]⟩

abbrev nBuf : Space → Nat
  | .hbm => 127
  | .vmem => 0
  | .smem => 0
  | _ => 0

abbrev bufTy : (tb : Table) → Fin (tcTables nBuf tb) → BufTy
  | .hbm, ⟨0, _⟩ => ⟨S100000x5, .f32⟩
  | .hbm, ⟨1, _⟩ => ⟨S2x3200000, .i32⟩
  | .hbm, ⟨2, _⟩ => ⟨S5x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S100000x16, .f32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000, .f32⟩
  | .hbm, ⟨49, _⟩ => ⟨S3300000, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x1, .f32⟩
  | .hbm, ⟨73, _⟩ => ⟨S_, .f32⟩
  | .hbm, ⟨74, _⟩ => ⟨S3300000, .f32⟩
  | .hbm, ⟨75, _⟩ => ⟨S_, .f32⟩
  | .hbm, ⟨76, _⟩ => ⟨S100000, .f32⟩
  | .hbm, ⟨77, _⟩ => ⟨S3300000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S_, .f32⟩
  | .hbm, ⟨83, _⟩ => ⟨S100000, .f32⟩
  | .hbm, ⟨84, _⟩ => ⟨S100000, .f32⟩
  | .hbm, ⟨85, _⟩ => ⟨S100000, .f32⟩
  | .hbm, ⟨86, _⟩ => ⟨S_, .f32⟩
  | .hbm, ⟨87, _⟩ => ⟨S_, .f32⟩
  | .hbm, ⟨88, _⟩ => ⟨S100000, .f32⟩
  | .hbm, ⟨89, _⟩ => ⟨S100000, .f32⟩
  | .hbm, ⟨90, _⟩ => ⟨S_, .i32⟩
  | .hbm, ⟨91, _⟩ => ⟨S3300000, .i32⟩
  | .hbm, ⟨92, _⟩ => ⟨S3300000, .i1⟩
  | .hbm, ⟨93, _⟩ => ⟨S_, .i32⟩
  | .hbm, ⟨94, _⟩ => ⟨S3300000, .i32⟩
  | .hbm, ⟨95, _⟩ => ⟨S3300000, .i32⟩
  | .hbm, ⟨96, _⟩ => ⟨S3300000, .i32⟩
  | .hbm, ⟨97, _⟩ => ⟨S3300000x1, .i32⟩
  | .hbm, ⟨98, _⟩ => ⟨S3300000, .f32⟩
  | .hbm, ⟨99, _⟩ => ⟨S_, .i32⟩
  | .hbm, ⟨100, _⟩ => ⟨S3300000, .i32⟩
  | .hbm, ⟨101, _⟩ => ⟨S3300000, .i1⟩
  | .hbm, ⟨102, _⟩ => ⟨S_, .i32⟩
  | .hbm, ⟨103, _⟩ => ⟨S3300000, .i32⟩
  | .hbm, ⟨104, _⟩ => ⟨S3300000, .i32⟩
  | .hbm, ⟨105, _⟩ => ⟨S3300000, .i32⟩
  | .hbm, ⟨106, _⟩ => ⟨S3300000x1, .i32⟩
  | .hbm, ⟨107, _⟩ => ⟨S3300000, .f32⟩
  | .hbm, ⟨108, _⟩ => ⟨S3300000, .f32⟩
  | .hbm, ⟨109, _⟩ => ⟨S_, .i32⟩
  | .hbm, ⟨110, _⟩ => ⟨S3300000, .i32⟩
  | .hbm, ⟨111, _⟩ => ⟨S3300000, .i1⟩
  | .hbm, ⟨112, _⟩ => ⟨S_, .i32⟩
  | .hbm, ⟨113, _⟩ => ⟨S3300000, .i32⟩
  | .hbm, ⟨114, _⟩ => ⟨S3300000, .i32⟩
  | .hbm, ⟨115, _⟩ => ⟨S3300000, .i32⟩
  | .hbm, ⟨116, _⟩ => ⟨S3300000x1, .i32⟩
  | .hbm, ⟨117, _⟩ => ⟨S3300000x1, .f32⟩
  | .hbm, ⟨118, _⟩ => ⟨S3300000x1, .f32⟩
  | .hbm, ⟨119, _⟩ => ⟨S3300000x1, .f32⟩
  | .hbm, ⟨120, _⟩ => ⟨S_, .f32⟩
  | .hbm, ⟨121, _⟩ => ⟨S100000x1, .f32⟩
  | .hbm, ⟨122, _⟩ => ⟨S3300000x1, .i32⟩
  | .hbm, ⟨123, _⟩ => ⟨S100000x1, .f32⟩
  | .hbm, ⟨124, _⟩ => ⟨S1x1, .f32⟩
  | .hbm, ⟨125, _⟩ => ⟨S100000x1, .f32⟩
  | .hbm, ⟨126, _⟩ => ⟨S100000x1, .f32⟩
  | _, _ => ⟨S100000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_call2_v0 : Ref sig .tc := ⟨.hbm, 87, rfl⟩
abbrev main_call2_v1 : Ref sig .tc := ⟨.hbm, 88, rfl⟩
abbrev main_v60 : Ref sig .tc := ⟨.hbm, 89, rfl⟩
abbrev main_c_15 : Ref sig .tc := ⟨.hbm, 90, rfl⟩
abbrev main_v61 : Ref sig .tc := ⟨.hbm, 91, rfl⟩
abbrev main_v62 : Ref sig .tc := ⟨.hbm, 92, rfl⟩
abbrev main_c_16 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_17 : Ref sig .tc := ⟨.hbm, 99, rfl⟩
abbrev main_v68 : Ref sig .tc := ⟨.hbm, 100, rfl⟩
abbrev main_v69 : Ref sig .tc := ⟨.hbm, 101, rfl⟩
abbrev main_c_18 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_19 : Ref sig .tc := ⟨.hbm, 109, rfl⟩
abbrev main_v76 : Ref sig .tc := ⟨.hbm, 110, rfl⟩
abbrev main_v77 : Ref sig .tc := ⟨.hbm, 111, rfl⟩
abbrev main_c_20 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_21 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x5_S5x16_S100000x16_1_0_0_1_n_n_wf : DotDims.WF S100000x5 S5x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x1_S100000x1_1_0_0_1_n_n_wf : DotDims.WF S100000x16 S16x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def dot_S100000x5_S5x16_S100000x16_1_0_0_1_n_n : DotDims S100000x5 S5x16 S100000x16 where
  lhsContracting := [1]
  rhsContracting := [0]
  lhsNonContracting := [0]
  rhsNonContracting := [1]
  lhsBatch := []
  rhsBatch := []
  wf := dot_S100000x5_S5x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.Reg0.lean ====
/-
  The first layer's feature transform. The array the first kernel region leaves is, entry by entry, the
  product of the node features with the first weight matrix: entry (r, j) is the sum over the five input
  features k of x[r, k] · W[k, j]. The region walks the 100000 rows in 20 blocks of 5000; at a point the
  body multiplies that block of rows by the whole (5 × 16) weight matrix into a zero accumulator, so the
  block's entry (r', j) is the sum over k of xblock[r', k] · W[k, j], and row r' of block t is row
  5000·t + r' of the array. The blocks tile the rows, so the array ends at that one function everywhere.
  At the exact reals the two narrowings to a 16-bit format before the product are the identity.
-/
import proofs.«162707_j31576599560907_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Reg0

open Cert.KernelIdeal Cert.KernelIdeal.Gen Idealize.ShloMosaic Idealize.ShloMosaic.TcCoe Idealize.SL.Sem
open Idealize.ShloMosaic.Pipeline (Dat)

/-! ## The product as one function of the two arrays -/

/-- Row `i 0` of the left array at feature `k`. -/
abbrev lrow (i : S100000x16.Idx) (k : Fin 5) : S100000x5.Idx := fun a => match a with
  | ⟨0, _⟩ => ⟨(i 0).val, (i 0).isLt⟩
  | ⟨1, _⟩ => ⟨k.val, k.isLt⟩
/-- Feature `k` of the weight matrix at column `i 1`. -/
abbrev rcol (i : S100000x16.Idx) (k : Fin 5) : S5x16.Idx := fun a => match a with
  | ⟨0, _⟩ => ⟨k.val, k.isLt⟩
  | ⟨1, _⟩ => ⟨(i 1).val, (i 1).isLt⟩

/-- x · W, entry by entry. -/
def rowsTimes (x : (⟨S100000x5, .f32⟩ : BufTy).Contents (Elt Ideal)) (w : (⟨S5x16, .f32⟩ : BufTy).Contents (Elt Ideal)) :
    (⟨S100000x16, .f32⟩ : BufTy).Contents (Elt Ideal) :=
  fun i => ∑ k : Fin 5, x (lrow i k) * w (rcol i k)

/-! ## One block: the body's product at an entry -/

abbrev blrow (j : S5000x16.Idx) (k : Fin 5) : S5000x5.Idx := fun a => match a with
  | ⟨0, _⟩ => ⟨(j 0).val, (j 0).isLt⟩
  | ⟨1, _⟩ => ⟨k.val, k.isLt⟩
abbrev blcol (j : S5000x16.Idx) (k : Fin 5) : S5x16.Idx := fun a => match a with
  | ⟨0, _⟩ => ⟨k.val, k.isLt⟩
  | ⟨1, _⟩ => ⟨(j 1).val, (j 1).isLt⟩

theorem lhs_blk_0 (j : S5000x16.Idx) (q : dot_S5000x5_S5x16_S5000x16_1_0_0_1_n_n.contr.Idx) :
    (dot_S5000x5_S5x16_S5000x16_1_0_0_1_n_n.lhsIdx j q 0).val = (j 0).val := by
  unfold DotDims.lhsIdx
  rw [dif_neg (show ¬(0 : Fin S5000x5.rank) ∈ dot_S5000x5_S5x16_S5000x16_1_0_0_1_n_n.lhsBatch by decide), dif_pos (show (0 : Fin S5000x5.rank) ∈ dot_S5000x5_S5x16_S5000x16_1_0_0_1_n_n.lhsNonContracting by decide)]
  rfl
theorem lhs_blk_1 (j : S5000x16.Idx) (q : dot_S5000x5_S5x16_S5000x16_1_0_0_1_n_n.contr.Idx) :
    (dot_S5000x5_S5x16_S5000x16_1_0_0_1_n_n.lhsIdx j q 1).val = (q ⟨0, by decide⟩).val :=
  dot_S5000x5_S5x16_S5000x16_1_0_0_1_n_n.lhsIdx_val_of_single rfl j q
theorem rhs_blk_0 (j : S5000x16.Idx) (q : dot_S5000x5_S5x16_S5000x16_1_0_0_1_n_n.contr.Idx) :
    (dot_S5000x5_S5x16_S5000x16_1_0_0_1_n_n.rhsIdx j q 0).val = (q ⟨0, by decide⟩).val :=
  dot_S5000x5_S5x16_S5000x16_1_0_0_1_n_n.rhsIdx_val_of_single rfl j q
theorem rhs_blk_1 (j : S5000x16.Idx) (q : dot_S5000x5_S5x16_S5000x16_1_0_0_1_n_n.contr.Idx) :
    (dot_S5000x5_S5x16_S5000x16_1_0_0_1_n_n.rhsIdx j q 1).val = (j 1).val := by
  unfold DotDims.rhsIdx
  rw [dif_neg (show ¬(1 : Fin S5x16.rank) ∈ dot_S5000x5_S5x16_S5000x16_1_0_0_1_n_n.rhsBatch by decide), dif_pos (show (1 : Fin S5x16.rank) ∈ dot_S5000x5_S5x16_S5000x16_1_0_0_1_n_n.rhsNonContracting by decide)]
  rfl

/-- The body's stored value at entry `j` of the block: the sum over the five features of the row block's entry
    times the weight's. -/
theorem pay_apply (x0 : Vec Ideal S5000x5 .f32) (x1 : Vec Ideal S5x16 .f32) (j : S5000x16.Idx) :
    k0_pay1 (F := Ideal) x0 x1 j = ∑ k : Fin 5, x0 (blrow j k) * x1 (blcol j k) := by
  unfold k0_pay1
  simp only [matmul]
  rw [Ideal.matmul_constant_zero_apply, ← Equiv.sum_comp (ValueIdx.contrEquiv1 dot_S5000x5_S5x16_S5000x16_1_0_0_1_n_n 5 rfl rfl).symm]
  refine Finset.sum_congr rfl fun k _ => ?_
  have hk := ValueIdx.contrEquiv1_symm_val dot_S5000x5_S5x16_S5000x16_1_0_0_1_n_n 5 rfl rfl k
  have el : dot_S5000x5_S5x16_S5000x16_1_0_0_1_n_n.lhsIdx j ((ValueIdx.contrEquiv1 dot_S5000x5_S5x16_S5000x16_1_0_0_1_n_n 5 rfl rfl).symm k) = blrow j k := funext fun a => Fin.ext (by
    match a with
    | ⟨0, _⟩ => exact lhs_blk_0 _ _
    | ⟨1, _⟩ => exact (lhs_blk_1 _ _).trans hk)
  have er : dot_S5000x5_S5x16_S5000x16_1_0_0_1_n_n.rhsIdx j ((ValueIdx.contrEquiv1 dot_S5000x5_S5x16_S5000x16_1_0_0_1_n_n 5 rfl rfl).symm k) = blcol j k := funext fun a => Fin.ext (by
    match a with
    | ⟨0, _⟩ => exact (rhs_blk_0 _ _).trans hk
    | ⟨1, _⟩ => exact rhs_blk_1 _ _)
  rw [el, er]
  rfl

/-! ## From the blocks to the array -/

variable (V : (c : Dev nD) → (b : Ref sig .tc) → Buf (Elt Ideal) ((c : Thread nD τ).loc b))

/-- The two arrays the region reads, at their literal types. -/
abbrev xarr (c : Dev nD) : (⟨S100000x5, .f32⟩ : BufTy).Contents (Elt Ideal) := V c main_arg0
abbrev warr (c : Dev nD) : (⟨S5x16, .f32⟩ : BufTy).Contents (Elt Ideal) := V c main_arg2

theorem hz : (![0, 0] : Fin 2 → Nat) = fun _ => 0 := funext fun a => by fin_cases a <;> rfl

/-- The printed index maps over the twenty points: the row blocks of the features and of the result move together,
    the point's number is the block's, and the weight matrix is always its one block. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every one of the twenty row blocks is some point's. -/
theorem idx_onto : ∀ q0 : Fin 20, ∃ t : Fin cfg0.N, win0_2.index t = ![q0.val, 0] :=
  (by decide +kernel : ∀ q0 : Fin 20, ∃ t : Fin grid0.N, win0_2.index t = ![q0.val, 0])

/-- What point `t` writes back is block `t` of the product of the two arrays as the region finds them. -/
theorem flushed_eq (c : Dev nD) (t : Fin cfg0.N) :
    (dat0 V c).flushed 2 t = ((cfg0.win 2).blk t).view.read (Elt Ideal) (rowsTimes (xarr V c) (warr V c)) := by
  show (cfg0.win 2).cut (grid0.coords t) ((dat0 V c).after 2 t) = _
  rw [after0_2]
  unfold out0_2
  rw [View.canon_unit_zero hz]
  simp only [View.ld_unit_zero (S := S5000x5) hz, View.ld_unit_zero (S := S5x16) hz]
  obtain ⟨e0, e1, e2, e3, e4, e5⟩ := idx_facts t
  funext j
  show k0_pay1 (F := Ideal) (iblk0 V c 0 t) (iblk0 V c 1 t) j = rowsTimes (xarr V c) (warr V c) (((cfg0.win 2).blk t).view.emb j)
  refine (pay_apply (iblk0 V c 0 t) (iblk0 V c 1 t) j).trans ?_
  unfold rowsTimes
  refine Finset.sum_congr rfl fun k _ => ?_
  have h0 : ((cfg0.win 0).blk t).view.emb (blrow j k) = lrow (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 5 + 1 * k.val = k.val; omega
  have h1 : ((cfg0.win 1).blk t).view.emb (blcol j k) = rcol (((cfg0.win 2).blk t).view.emb j) k := by
    funext a; apply Fin.ext
    match a with
    | ⟨0, _⟩ => show win0_1.index t (0 : Fin 2) * 5 + 1 * k.val = k.val; omega
    | ⟨1, _⟩ => show win0_1.index t (1 : Fin 2) * 16 + 1 * (j 1).val = win0_2.index t (1 : Fin 2) * 16 + 1 * (j 1).val; omega
  show xarr V c (((cfg0.win 0).blk t).view.emb (blrow j k)) * warr V c (((cfg0.win 1).blk t).view.emb (blcol j k)) = _
  rw [h0, h1]

/-- An index of the array is in point `t`'s block iff each coordinate is in the block's range on its axis. -/
theorem mem_blk (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v32).slice (win0_2.rect t)).set ↔ _
  rw [View.set_slice_whole, Rect.mem_set_unit]
  exact Iff.rfl

/-- Every entry of the array lies in the block of the point that handles its row. -/
theorem cover (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- The array the region leaves: the product of the two arrays it found. -/
theorem final (c : Dev nD) : (dat0 V c).arrAt 2 cfg0.N = rowsTimes (xarr V c) (warr V c) :=
  (dat0 V c).arrAt_eq_of_cover 2 _ (fun t _ => flushed_eq V c t) cover

end Cert.KernelIdeal.Reg0

end
-- ==== Proof.Reg1.lean ====
/-
  The first layer's bias and rectifier. The array the second kernel region leaves is, entry by entry, the
  aggregated features plus the bias of their column, cut below at zero: entry (r, j) is
  max(agg[r, j] + b[0, j], 0). The region walks the 100000 rows in 20 blocks of 5000 and the bias row is the
  same one block at every point; the body adds the row, broadcast over the block's rows, and takes the maximum
  with the zero splat. Row r' of block t is row 5000·t + r' of the array and the blocks tile the rows.
-/
import proofs.«162707_j31576599560907_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Reg1

open Cert.KernelIdeal Cert.KernelIdeal.Gen Idealize.ShloMosaic Idealize.ShloMosaic.TcCoe Idealize.SL.Sem
open Idealize.ShloMosaic.Pipeline (Dat)

/-! ## The result as one function of the two arrays -/

/-- The bias row's entry for column `i 1`. -/
abbrev brow (i : S100000x16.Idx) : S1x16.Idx := fun a => match a with
  | ⟨0, _⟩ => ⟨0, Nat.one_pos⟩
  | ⟨1, _⟩ => ⟨(i 1).val, (i 1).isLt⟩

/-- max(a + b, 0), entry by entry, the bias row read at the entry's column. -/
def biasRelu (a : (⟨S100000x16, .f32⟩ : BufTy).Contents (Elt Ideal)) (b : (⟨S1x16, .f32⟩ : BufTy).Contents (Elt Ideal)) :
    (⟨S100000x16, .f32⟩ : BufTy).Contents (Elt Ideal) :=
  fun i => FloatOps.maximumf (F := Ideal) (φ := .f32) (FloatOps.addf (F := Ideal) (φ := .f32) (a i) (b (brow i))) (FloatOps.ofBits .f32 0x00000000#32)

/-! ## One block -/

abbrev bbrow (j : S5000x16.Idx) : S1x16.Idx := fun a => match a with
  | ⟨0, _⟩ => ⟨0, Nat.one_pos⟩
  | ⟨1, _⟩ => ⟨(j 1).val, (j 1).isLt⟩

/-- The body's stored value at entry `j` of the block. -/
theorem pay_apply (x0 : FVec Ideal S5000x16 .f32) (x1 : FVec Ideal S1x16 .f32) (j : S5000x16.Idx) :
    k1_pay1 (F := Ideal) x0 x1 j = FloatOps.maximumf (F := Ideal) (φ := .f32) (FloatOps.addf (F := Ideal) (φ := .f32) (x0 j) (x1 (bbrow j))) (FloatOps.ofBits .f32 0x00000000#32) := by
  have hb : broadcastTo S5000x16 x1 broadcasts_S1x16_S5000x16 j = x1 (bbrow j) :=
    broadcastTo_apply x1 broadcasts_S1x16_S5000x16 j (bbrow j) (fun a => match a with
      | ⟨0, _⟩ => by show 0 = if (1 : Nat) = 1 then 0 else (j 0).val; rw [if_pos rfl]
      | ⟨1, _⟩ => by show (j 1).val = if (16 : Nat) = 1 then 0 else (j 1).val; rw [if_neg (by decide)])
  unfold k1_pay1
  rw [shapeCast_self, shapeCast_self]
  exact congrArg (fun z => FloatOps.maximumf (F := Ideal) (φ := .f32) (FloatOps.addf (F := Ideal) (φ := .f32) (x0 j) z) (FloatOps.ofBits .f32 0x00000000#32)) hb

/-! ## From the blocks to the array -/

variable (V : (c : Dev nD) → (b : Ref sig .tc) → Buf (Elt Ideal) ((c : Thread nD τ).loc b))

/-- The two arrays the region reads, at their literal types. -/
abbrev aarr (c : Dev nD) : (⟨S100000x16, .f32⟩ : BufTy).Contents (Elt Ideal) := V c main_v45
abbrev barr (c : Dev nD) : (⟨S1x16, .f32⟩ : BufTy).Contents (Elt Ideal) := V c main_v46

theorem hz : (![0, 0] : Fin 2 → Nat) = fun _ => 0 := funext fun a => by fin_cases a <;> rfl

/-- The printed index maps over the twenty points: the row blocks of the operand and of the result move together,
    and the bias row is always its one block. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 19 :=
  (by decide +kernel : ∀ t : Fin grid1.N, _)

/-- Every one of the twenty row blocks is some point's. -/
theorem idx_onto : ∀ q0 : Fin 20, ∃ t : Fin cfg1.N, win1_2.index t = ![q0.val, 0] :=
  (by decide +kernel : ∀ q0 : Fin 20, ∃ t : Fin grid1.N, win1_2.index t = ![q0.val, 0])

/-- What point `t` writes back is block `t` of the biased, rectified array. -/
theorem flushed_eq (c : Dev nD) (t : Fin cfg1.N) :
    (dat1 V c).flushed 2 t = ((cfg1.win 2).blk t).view.read (Elt Ideal) (biasRelu (aarr V c) (barr V c)) := by
  show (cfg1.win 2).cut (grid1.coords t) ((dat1 V c).after 2 t) = _
  rw [after1_2]
  unfold out1_2
  rw [View.canon_unit_zero hz]
  simp only [View.ld_unit_zero (S := S5000x16) hz, View.ld_unit_zero (S := S1x16) hz]
  obtain ⟨e0, e1, e2, e3, e4, e5⟩ := idx_facts t
  funext j
  show k1_pay1 (F := Ideal) (iblk1 V c 0 t) (iblk1 V c 1 t) j = biasRelu (aarr V c) (barr V c) (((cfg1.win 2).blk t).view.emb j)
  refine (pay_apply (iblk1 V c 0 t) (iblk1 V c 1 t) j).trans ?_
  unfold biasRelu
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 16 + 1 * (j 1).val = win1_2.index t (1 : Fin 2) * 16 + 1 * (j 1).val; omega
  have h1 : ((cfg1.win 1).blk t).view.emb (bbrow j) = brow (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 16 + 1 * (j 1).val = win1_2.index t (1 : Fin 2) * 16 + 1 * (j 1).val; omega
  show FloatOps.maximumf (F := Ideal) (φ := .f32) (FloatOps.addf (F := Ideal) (φ := .f32) (aarr V c (((cfg1.win 0).blk t).view.emb j)) (barr V c (((cfg1.win 1).blk t).view.emb (bbrow j)))) _ = _
  rw [h0, h1]

/-- An index of the array is in point `t`'s block iff each coordinate is in the block's range on its axis. -/
theorem mem_blk (t : Fin cfg1.N) (i : S100000x16.Idx) :
    i ∈ ((cfg1.win 2).blk t).view.set ↔ ∀ a : Fin 2, win1_2.index t a * S5000x16.size a ≤ (i a).val ∧ (i a).val < win1_2.index t a * S5000x16.size a + S5000x16.size a := by
  show i ∈ ((View.whole main_v47).slice (win1_2.rect t)).set ↔ _
  rw [View.set_slice_whole, Rect.mem_set_unit]
  exact Iff.rfl

/-- Every entry of the array lies in the block of the point that handles its row. -/
theorem cover (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 16 ≤ (i 1).val ∧ (i 1).val < win1_2.index t (1 : Fin 2) * 16 + 16; omega

/-- The array the region leaves. -/
theorem final (c : Dev nD) : (dat1 V c).arrAt 2 cfg1.N = biasRelu (aarr V c) (barr V c) :=
  (dat1 V c).arrAt_eq_of_cover 2 _ (fun t _ => flushed_eq V c t) cover

end Cert.KernelIdeal.Reg1

end
-- ==== Proof.Reg2.lean ====
/-
  The second layer's feature transform. The array the third kernel region leaves is, entry by entry, the
  product of the hidden features with the second weight matrix: entry (r, 0) is the sum over the sixteen hidden
  features k of h[r, k] · W[k, 0]. The region walks the 100000 rows in 20 blocks of 5000; at a point the body
  multiplies that block of rows by the whole (16 × 1) weight matrix into a zero accumulator. Row r' of block t
  is row 5000·t + r' of the array, and the blocks tile the rows. At the exact reals the two narrowings to a
  16-bit format before the product, and the cast of the block to its own shape, are the identity.
-/
import proofs.«162707_j31576599560907_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Reg2

open Cert.KernelIdeal Cert.KernelIdeal.Gen Idealize.ShloMosaic Idealize.ShloMosaic.TcCoe Idealize.SL.Sem
open Idealize.ShloMosaic.Pipeline (Dat)

/-! ## The product as one function of the two arrays -/

/-- Row `i 0` of the left array at feature `k`. -/
abbrev lrow (i : S100000x1.Idx) (k : Fin 16) : S100000x16.Idx := fun a => match a with
  | ⟨0, _⟩ => ⟨(i 0).val, (i 0).isLt⟩
  | ⟨1, _⟩ => ⟨k.val, k.isLt⟩
/-- Feature `k` of the weight matrix at column `i 1`. -/
abbrev rcol (i : S100000x1.Idx) (k : Fin 16) : S16x1.Idx := fun a => match a with
  | ⟨0, _⟩ => ⟨k.val, k.isLt⟩
  | ⟨1, _⟩ => ⟨(i 1).val, (i 1).isLt⟩

/-- h · W, entry by entry. -/
def rowsTimes (h : (⟨S100000x16, .f32⟩ : BufTy).Contents (Elt Ideal)) (w : (⟨S16x1, .f32⟩ : BufTy).Contents (Elt Ideal)) :
    (⟨S100000x1, .f32⟩ : BufTy).Contents (Elt Ideal) :=
  fun i => ∑ k : Fin 16, h (lrow i k) * w (rcol i k)

/-! ## One block: the body's product at an entry -/

abbrev blrow (j : S5000x1.Idx) (k : Fin 16) : S5000x16.Idx := fun a => match a with
  | ⟨0, _⟩ => ⟨(j 0).val, (j 0).isLt⟩
  | ⟨1, _⟩ => ⟨k.val, k.isLt⟩
abbrev blcol (j : S5000x1.Idx) (k : Fin 16) : S16x1.Idx := fun a => match a with
  | ⟨0, _⟩ => ⟨k.val, k.isLt⟩
  | ⟨1, _⟩ => ⟨(j 1).val, (j 1).isLt⟩

theorem lhs_blk_0 (j : S5000x1.Idx) (q : dot_S5000x16_S16x1_S5000x1_1_0_0_1_n_n.contr.Idx) :
    (dot_S5000x16_S16x1_S5000x1_1_0_0_1_n_n.lhsIdx j q 0).val = (j 0).val := by
  unfold DotDims.lhsIdx
  rw [dif_neg (show ¬(0 : Fin S5000x16.rank) ∈ dot_S5000x16_S16x1_S5000x1_1_0_0_1_n_n.lhsBatch by decide), dif_pos (show (0 : Fin S5000x16.rank) ∈ dot_S5000x16_S16x1_S5000x1_1_0_0_1_n_n.lhsNonContracting by decide)]
  rfl
theorem lhs_blk_1 (j : S5000x1.Idx) (q : dot_S5000x16_S16x1_S5000x1_1_0_0_1_n_n.contr.Idx) :
    (dot_S5000x16_S16x1_S5000x1_1_0_0_1_n_n.lhsIdx j q 1).val = (q ⟨0, by decide⟩).val :=
  dot_S5000x16_S16x1_S5000x1_1_0_0_1_n_n.lhsIdx_val_of_single rfl j q
theorem rhs_blk_0 (j : S5000x1.Idx) (q : dot_S5000x16_S16x1_S5000x1_1_0_0_1_n_n.contr.Idx) :
    (dot_S5000x16_S16x1_S5000x1_1_0_0_1_n_n.rhsIdx j q 0).val = (q ⟨0, by decide⟩).val :=
  dot_S5000x16_S16x1_S5000x1_1_0_0_1_n_n.rhsIdx_val_of_single rfl j q
theorem rhs_blk_1 (j : S5000x1.Idx) (q : dot_S5000x16_S16x1_S5000x1_1_0_0_1_n_n.contr.Idx) :
    (dot_S5000x16_S16x1_S5000x1_1_0_0_1_n_n.rhsIdx j q 1).val = (j 1).val := by
  unfold DotDims.rhsIdx
  rw [dif_neg (show ¬(1 : Fin S16x1.rank) ∈ dot_S5000x16_S16x1_S5000x1_1_0_0_1_n_n.rhsBatch by decide), dif_pos (show (1 : Fin S16x1.rank) ∈ dot_S5000x16_S16x1_S5000x1_1_0_0_1_n_n.rhsNonContracting by decide)]
  rfl

/-- The body's stored value at entry `j` of the block: the sum over the sixteen features of the row block's entry
    times the weight's. -/
theorem pay_apply (x0 : Vec Ideal S5000x16 .f32) (x1 : Vec Ideal S16x1 .f32) (j : S5000x1.Idx) :
    k2_pay1 (F := Ideal) x0 x1 j = ∑ k : Fin 16, x0 (blrow j k) * x1 (blcol j k) := by
  unfold k2_pay1
  rw [shapeCast_self]
  simp only [matmul]
  rw [Ideal.matmul_constant_zero_apply, ← Equiv.sum_comp (ValueIdx.contrEquiv1 dot_S5000x16_S16x1_S5000x1_1_0_0_1_n_n 16 rfl rfl).symm]
  refine Finset.sum_congr rfl fun k _ => ?_
  have hk := ValueIdx.contrEquiv1_symm_val dot_S5000x16_S16x1_S5000x1_1_0_0_1_n_n 16 rfl rfl k
  have el : dot_S5000x16_S16x1_S5000x1_1_0_0_1_n_n.lhsIdx j ((ValueIdx.contrEquiv1 dot_S5000x16_S16x1_S5000x1_1_0_0_1_n_n 16 rfl rfl).symm k) = blrow j k := funext fun a => Fin.ext (by
    match a with
    | ⟨0, _⟩ => exact lhs_blk_0 _ _
    | ⟨1, _⟩ => exact (lhs_blk_1 _ _).trans hk)
  have er : dot_S5000x16_S16x1_S5000x1_1_0_0_1_n_n.rhsIdx j ((ValueIdx.contrEquiv1 dot_S5000x16_S16x1_S5000x1_1_0_0_1_n_n 16 rfl rfl).symm k) = blcol j k := funext fun a => Fin.ext (by
    match a with
    | ⟨0, _⟩ => exact (rhs_blk_0 _ _).trans hk
    | ⟨1, _⟩ => exact rhs_blk_1 _ _)
  rw [el, er]
  rfl

/-! ## From the blocks to the array -/

variable (V : (c : Dev nD) → (b : Ref sig .tc) → Buf (Elt Ideal) ((c : Thread nD τ).loc b))

/-- The two arrays the region reads, at their literal types. -/
abbrev harr (c : Dev nD) : (⟨S100000x16, .f32⟩ : BufTy).Contents (Elt Ideal) := V c main_v47
abbrev warr (c : Dev nD) : (⟨S16x1, .f32⟩ : BufTy).Contents (Elt Ideal) := V c main_arg4

theorem hz : (![0, 0] : Fin 2 → Nat) = fun _ => 0 := funext fun a => by fin_cases a <;> rfl

/-- The printed index maps over the twenty points: the row blocks of the hidden features and of the result move
    together, and the weight matrix is always its one block. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 19 :=
  (by decide +kernel : ∀ t : Fin grid2.N, _)

/-- Every one of the twenty row blocks is some point's. -/
theorem idx_onto : ∀ q0 : Fin 20, ∃ t : Fin cfg2.N, win2_2.index t = ![q0.val, 0] :=
  (by decide +kernel : ∀ q0 : Fin 20, ∃ t : Fin grid2.N, win2_2.index t = ![q0.val, 0])

/-- What point `t` writes back is block `t` of the product of the two arrays as the region finds them. -/
theorem flushed_eq (c : Dev nD) (t : Fin cfg2.N) :
    (dat2 V c).flushed 2 t = ((cfg2.win 2).blk t).view.read (Elt Ideal) (rowsTimes (harr V c) (warr V c)) := by
  show (cfg2.win 2).cut (grid2.coords t) ((dat2 V c).after 2 t) = _
  rw [after2_2]
  unfold out2_2
  rw [View.canon_unit_zero hz]
  simp only [View.ld_unit_zero (S := S5000x16) hz, View.ld_unit_zero (S := S16x1) hz]
  obtain ⟨e0, e1, e2, e3, e4, e5⟩ := idx_facts t
  funext j
  show k2_pay1 (F := Ideal) (iblk2 V c 0 t) (iblk2 V c 1 t) j = rowsTimes (harr V c) (warr V c) (((cfg2.win 2).blk t).view.emb j)
  refine (pay_apply (iblk2 V c 0 t) (iblk2 V c 1 t) j).trans ?_
  unfold rowsTimes
  refine Finset.sum_congr rfl fun k _ => ?_
  have h0 : ((cfg2.win 0).blk t).view.emb (blrow j k) = lrow (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 16 + 1 * k.val = k.val; omega
  have h1 : ((cfg2.win 1).blk t).view.emb (blcol j k) = rcol (((cfg2.win 2).blk t).view.emb j) k := by
    funext a; apply Fin.ext
    match a with
    | ⟨0, _⟩ => show win2_1.index t (0 : Fin 2) * 16 + 1 * k.val = k.val; omega
    | ⟨1, _⟩ => show win2_1.index t (1 : Fin 2) * 1 + 1 * (j 1).val = win2_2.index t (1 : Fin 2) * 1 + 1 * (j 1).val; omega
  show harr V c (((cfg2.win 0).blk t).view.emb (blrow j k)) * warr V c (((cfg2.win 1).blk t).view.emb (blcol j k)) = _
  rw [h0, h1]

/-- An index of the array is in point `t`'s block iff each coordinate is in the block's range on its axis. -/
theorem mem_blk (t : Fin cfg2.N) (i : S100000x1.Idx) :
    i ∈ ((cfg2.win 2).blk t).view.set ↔ ∀ a : Fin 2, win2_2.index t a * S5000x1.size a ≤ (i a).val ∧ (i a).val < win2_2.index t a * S5000x1.size a + S5000x1.size a := by
  show i ∈ ((View.whole main_v48).slice (win2_2.rect t)).set ↔ _
  rw [View.set_slice_whole, Rect.mem_set_unit]
  exact Iff.rfl

/-- Every entry of the array lies in the block of the point that handles its row. -/
theorem cover (i : S100000x1.Idx) : ∃ t : Fin cfg2.N, (cfg2.win 2).flush t = true ∧ i ∈ ((cfg2.win 2).blk t).view.set := by
  have hi0 : (i 0).val < 100000 := (i 0).isLt
  have hi1 : (i 1).val < 1 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 1 ≤ (i 1).val ∧ (i 1).val < win2_2.index t (1 : Fin 2) * 1 + 1; omega

/-- The array the region leaves: the product of the two arrays it found. -/
theorem final (c : Dev nD) : (dat2 V c).arrAt 2 cfg2.N = rowsTimes (harr V c) (warr V c) :=
  (dat2 V c).arrAt_eq_of_cover 2 _ (fun t _ => flushed_eq V c t) cover

end Cert.KernelIdeal.Reg2

end
-- ==== Proof.Reg3.lean ====
/-
  The second layer's bias. The array the last kernel region leaves is, entry by entry, the aggregated
  output plus the one bias value: entry (r, 0) is agg[r, 0] + b[0, 0]. The region walks the 100000 rows in 20
  blocks of 5000, the bias being the same one-entry block at every point; the body adds it, broadcast over the
  block. Row r' of block t is row 5000·t + r' of the array and the blocks tile the rows.
-/
import proofs.«162707_j31576599560907_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Reg3

open Cert.KernelIdeal Cert.KernelIdeal.Gen Idealize.ShloMosaic Idealize.ShloMosaic.TcCoe Idealize.SL.Sem
open Idealize.ShloMosaic.Pipeline (Dat)

/-! ## The result as one function of the two arrays -/

/-- The bias's one entry. -/
abbrev b00 (i : S100000x1.Idx) : S1x1.Idx := fun a => match a with
  | ⟨0, _⟩ => ⟨0, Nat.one_pos⟩
  | ⟨1, _⟩ => ⟨0, Nat.one_pos⟩

/-- a + b, entry by entry. -/
def biasOut (a : (⟨S100000x1, .f32⟩ : BufTy).Contents (Elt Ideal)) (b : (⟨S1x1, .f32⟩ : BufTy).Contents (Elt Ideal)) :
    (⟨S100000x1, .f32⟩ : BufTy).Contents (Elt Ideal) :=
  fun i => FloatOps.addf (F := Ideal) (φ := .f32) (a i) (b (b00 i))

/-! ## One block -/

abbrev bb00 (j : S5000x1.Idx) : S1x1.Idx := fun a => match a with
  | ⟨0, _⟩ => ⟨0, Nat.one_pos⟩
  | ⟨1, _⟩ => ⟨0, Nat.one_pos⟩

/-- The body's stored value at entry `j` of the block. -/
theorem pay_apply (x0 : FVec Ideal S5000x1 .f32) (x1 : FVec Ideal S1x1 .f32) (j : S5000x1.Idx) :
    k3_pay1 (F := Ideal) x0 x1 j = FloatOps.addf (F := Ideal) (φ := .f32) (x0 j) (x1 (bb00 j)) := by
  have hb : broadcastTo S5000x1 x1 broadcasts_S1x1_S5000x1 j = x1 (bb00 j) :=
    broadcastTo_apply x1 broadcasts_S1x1_S5000x1 j (bb00 j) (fun a => match a with
      | ⟨0, _⟩ => by show 0 = if (1 : Nat) = 1 then 0 else (j 0).val; rw [if_pos rfl]
      | ⟨1, _⟩ => by show 0 = if (1 : Nat) = 1 then 0 else (j 1).val; rw [if_pos rfl])
  unfold k3_pay1
  rw [shapeCast_self, shapeCast_self]
  exact congrArg (fun z => FloatOps.addf (F := Ideal) (φ := .f32) (x0 j) z) hb

/-! ## From the blocks to the array -/

variable (V : (c : Dev nD) → (b : Ref sig .tc) → Buf (Elt Ideal) ((c : Thread nD τ).loc b))

/-- The two arrays the region reads, at their literal types. -/
abbrev aarr (c : Dev nD) : (⟨S100000x1, .f32⟩ : BufTy).Contents (Elt Ideal) := V c main_v60
abbrev barr (c : Dev nD) : (⟨S1x1, .f32⟩ : BufTy).Contents (Elt Ideal) := V c main_v61

theorem hz : (![0, 0] : Fin 2 → Nat) = fun _ => 0 := funext fun a => by fin_cases a <;> rfl

/-- The printed index maps over the twenty points: the row blocks of the operand and of the result move together,
    and the bias is always its one block. -/
theorem idx_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 19 :=
  (by decide +kernel : ∀ t : Fin grid3.N, _)

/-- Every one of the twenty row blocks is some point's. -/
theorem idx_onto : ∀ q0 : Fin 20, ∃ t : Fin cfg3.N, win3_2.index t = ![q0.val, 0] :=
  (by decide +kernel : ∀ q0 : Fin 20, ∃ t : Fin grid3.N, win3_2.index t = ![q0.val, 0])

/-- What point `t` writes back is block `t` of the biased array. -/
theorem flushed_eq (c : Dev nD) (t : Fin cfg3.N) :
    (dat3 V c).flushed 2 t = ((cfg3.win 2).blk t).view.read (Elt Ideal) (biasOut (aarr V c) (barr V c)) := by
  show (cfg3.win 2).cut (grid3.coords t) ((dat3 V c).after 2 t) = _
  rw [after3_2]
  unfold out3_2
  rw [View.canon_unit_zero hz]
  simp only [View.ld_unit_zero (S := S5000x1) hz, View.ld_unit_zero (S := S1x1) hz]
  obtain ⟨e0, e1, e2, e3, e4, e5⟩ := idx_facts t
  funext j
  show k3_pay1 (F := Ideal) (iblk3 V c 0 t) (iblk3 V c 1 t) j = biasOut (aarr V c) (barr V c) (((cfg3.win 2).blk t).view.emb j)
  refine (pay_apply (iblk3 V c 0 t) (iblk3 V c 1 t) j).trans ?_
  unfold biasOut
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 1 + 1 * (j 1).val = win3_2.index t (1 : Fin 2) * 1 + 1 * (j 1).val; omega
  have h1 : ((cfg3.win 1).blk t).view.emb (bb00 j) = b00 (((cfg3.win 2).blk t).view.emb j) := by
    funext a; apply Fin.ext
    match a with
    | ⟨0, _⟩ => show win3_1.index t (0 : Fin 2) * 1 + 1 * 0 = 0; omega
    | ⟨1, _⟩ => show win3_1.index t (1 : Fin 2) * 1 + 1 * 0 = 0; omega
  show FloatOps.addf (F := Ideal) (φ := .f32) (aarr V c (((cfg3.win 0).blk t).view.emb j)) (barr V c (((cfg3.win 1).blk t).view.emb (bb00 j))) = _
  rw [h0, h1]

/-- An index of the array is in point `t`'s block iff each coordinate is in the block's range on its axis. -/
theorem mem_blk (t : Fin cfg3.N) (i : S100000x1.Idx) :
    i ∈ ((cfg3.win 2).blk t).view.set ↔ ∀ a : Fin 2, win3_2.index t a * S5000x1.size a ≤ (i a).val ∧ (i a).val < win3_2.index t a * S5000x1.size a + S5000x1.size a := by
  show i ∈ ((View.whole main_v62).slice (win3_2.rect t)).set ↔ _
  rw [View.set_slice_whole, Rect.mem_set_unit]
  exact Iff.rfl

/-- Every entry of the array lies in the block of the point that handles its row. -/
theorem cover (i : S100000x1.Idx) : ∃ t : Fin cfg3.N, (cfg3.win 2).flush t = true ∧ i ∈ ((cfg3.win 2).blk t).view.set := by
  have hi0 : (i 0).val < 100000 := (i 0).isLt
  have hi1 : (i 1).val < 1 := (i 1).isLt
  obtain ⟨t, ht⟩ := idx_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 1 ≤ (i 1).val ∧ (i 1).val < win3_2.index t (1 : Fin 2) * 1 + 1; omega

/-- The array the region leaves. -/
theorem final (c : Dev nD) : (dat3 V c).arrAt 2 cfg3.N = biasOut (aarr V c) (barr V c) :=
  (dat3 V c).arrAt_eq_of_cover 2 _ (fun t _ => flushed_eq V c t) cover

end Cert.KernelIdeal.Reg3

end
-- ==== Proof.RefStages.lean ====
/-
  The reference, read layer by layer. Each of its two graph-convolution layers is: transform the features by a
  matrix product, gather the transformed rows at the edges' sources, scale each by the edge's normalisation,
  sum them into the edges' targets, add the bias (and, after the first layer, cut below at zero). Here the
  aggregation (gather, scale, scatter-add) is named as ONE function of the transformed features and the edge
  array, so that the kernel's aggregation, which is the same chain of operations, meets it without being opened;
  the normalisation the reference computes once per layer is one function of the edge array; and the four
  remaining stages (the two products, bias with rectifier, bias) are the four functions the kernel's regions
  leave, entry by entry: a product of matrices is the same sum over the contracted index on both sides, and a
  bias of length C viewed as a [1, C] row is read at the entry's column either way.
-/
import proofs.«162707_j31576599560907_1_alg».proof.Proof.RefRead
import proofs.«162707_j31576599560907_1_alg».proof.Proof.Reg0
import proofs.«162707_j31576599560907_1_alg».proof.Proof.Reg1
import proofs.«162707_j31576599560907_1_alg».proof.Proof.Reg2
import proofs.«162707_j31576599560907_1_alg».proof.Proof.Reg3

noncomputable section

namespace Cert.ReferenceIdeal.Stages

open Cert.ReferenceIdeal Cert.ReferenceIdeal.Gen Cert.ReferenceIdeal.ReadP Idealize.ShloMosaic Idealize.ShloMosaic.TcCoe Idealize.SL.Sem Idealize.ShloMosaic.StableHlo

section Generic

variable {F : FTy → Type} [FloatOps F]

/-- The first layer's aggregation: the transformed features `h` gathered at the edges' sources, scaled by the
    edges' normalisation, summed into the edges' targets. -/
def agg16 (h : (⟨S100000x16, .f32⟩ : BufTy).Contents (Elt F)) (x1 : (⟨S2x3200000, .i32⟩ : BufTy).Contents (Elt F)) :
    (⟨S100000x16, .f32⟩ : BufTy).Contents (Elt F) :=
  Host.scatterAdd scatter_S100000x16_S3300000x1_S3300000x16_1_0_0_1 (val_main_v43 (F := F)) (val_main_v44 (F := F) x1)
    (mulf (Host.gather gather_S100000x16_S3300000x1_S3300000x16_1_0_n_n_0_1_116 h (val_main_v38 (F := F) x1)) (val_main_v41 (F := F) x1))

theorem v45_eq (x0 : (⟨S100000x5, .f32⟩ : BufTy).Contents (Elt F)) (x1 : (⟨S2x3200000, .i32⟩ : BufTy).Contents (Elt F)) (x2 : (⟨S5x16, .f32⟩ : BufTy).Contents (Elt F)) :
    val_main_v45 (F := F) x0 x1 x2 = agg16 (val_main_v7 (F := F) x0 x2) x1 := rfl

/-- The second layer's aggregation, one column wide, over the first layer's normalisation. -/
def agg1 (h : (⟨S100000x1, .f32⟩ : BufTy).Contents (Elt F)) (x1 : (⟨S2x3200000, .i32⟩ : BufTy).Contents (Elt F)) :
    (⟨S100000x1, .f32⟩ : BufTy).Contents (Elt F) :=
  Host.scatterAdd scatter_S100000x1_S3300000x1_S3300000x1_1_0_0_1 (val_main_v85 (F := F)) (val_main_v86 (F := F) x1)
    (mulf (Host.gather gather_S100000x1_S3300000x1_S3300000x1_1_0_n_n_0_1_11 h (val_main_v81 (F := F) x1))
      (broadcastInDim S3300000x1 ![0] bcast_S3300000_S3300000x1_0 (val_main_v32 (F := F) x1)))

/-- The in-degrees the second layer counts are the first layer's. -/
theorem deg_again (x1 : (⟨S2x3200000, .i32⟩ : BufTy).Contents (Elt F)) : val_main_v54 (F := F) x1 = val_main_v11 (F := F) x1 := rfl
/-- So is their inverse square root, zero where a node has no edge. -/
theorem dis_again (x1 : (⟨S2x3200000, .i32⟩ : BufTy).Contents (Elt F)) : val_main_v60 (F := F) x1 = val_main_v17 (F := F) x1 := by
  unfold val_main_v60 val_main_v17 val_main_v56 val_main_v13 val_main_v59 val_main_v16 val_main_v58 val_main_v15
  rw [deg_again]
  rfl
/-- So is the edges' normalisation: the product of the two ends' factors. -/
theorem norm_again (x1 : (⟨S2x3200000, .i32⟩ : BufTy).Contents (Elt F)) : val_main_v75 (F := F) x1 = val_main_v32 (F := F) x1 := by
  unfold val_main_v75 val_main_v32 val_main_v67 val_main_v24 val_main_v74 val_main_v31
  rw [dis_again]
  rfl

theorem v87_eq (x0 : (⟨S100000x5, .f32⟩ : BufTy).Contents (Elt F)) (x1 : (⟨S2x3200000, .i32⟩ : BufTy).Contents (Elt F)) (x2 : (⟨S5x16, .f32⟩ : BufTy).Contents (Elt F))
    (x3 : (⟨S16, .f32⟩ : BufTy).Contents (Elt F)) (x4 : (⟨S16x1, .f32⟩ : BufTy).Contents (Elt F)) :
    val_main_v87 (F := F) x0 x1 x2 x3 x4 = agg1 (val_main_v50 (F := F) x0 x1 x2 x3 x4) x1 := by
  unfold val_main_v87 agg1 val_main_v84 val_main_v82 val_main_v83
  rw [norm_again]

end Generic

/-! ## The four stages the kernel's regions compute, at the exact reals -/

/-- The first product. -/
theorem v7_eq (x0 : (⟨S100000x5, .f32⟩ : BufTy).Contents (Elt Ideal)) (x2 : (⟨S5x16, .f32⟩ : BufTy).Contents (Elt Ideal)) :
    val_main_v7 (F := Ideal) x0 x2 = Cert.KernelIdeal.Reg0.rowsTimes x0 x2 := by
  funext i
  rw [val_main_v7_apply]
  rfl

/-- The second product. -/
theorem v50_eq (x0 : (⟨S100000x5, .f32⟩ : BufTy).Contents (Elt Ideal)) (x1 : (⟨S2x3200000, .i32⟩ : BufTy).Contents (Elt Ideal)) (x2 : (⟨S5x16, .f32⟩ : BufTy).Contents (Elt Ideal))
    (x3 : (⟨S16, .f32⟩ : BufTy).Contents (Elt Ideal)) (x4 : (⟨S16x1, .f32⟩ : BufTy).Contents (Elt Ideal)) :
    val_main_v50 (F := Ideal) x0 x1 x2 x3 x4 = Cert.KernelIdeal.Reg2.rowsTimes (val_main_v49 (F := Ideal) x0 x1 x2 x3) x4 := by
  funext i
  rw [val_main_v50_apply]
  rfl

/-- Bias and rectifier: a bias of length 16 cast to a [1, 16] row and read at the entry's column is the bias
    broadcast over the rows, and the zero the rectifier cuts at is the same literal. -/
theorem biasRelu_row (a : (⟨S100000x16, .f32⟩ : BufTy).Contents (Elt Ideal)) (x3 : (⟨S16, .f32⟩ : BufTy).Contents (Elt Ideal))
    (h : S16.ShapeCasts S1x16) :
    Cert.KernelIdeal.Reg1.biasRelu a (shapeCast S1x16 x3 h) = maximumf (F := Ideal) (s := S100000x16) (φ := .f32) (addf (F := Ideal) (s := S100000x16) (φ := .f32) a (val_main_v47 (F := Ideal) x3)) (val_main_call1_v0 (F := Ideal)) := by
  funext i
  show FloatOps.maximumf (F := Ideal) (φ := .f32) (FloatOps.addf (F := Ideal) (φ := .f32) (a i) (shapeCast S1x16 x3 h (Cert.KernelIdeal.Reg1.brow i))) (FloatOps.ofBits .f32 0x00000000#32)
    = FloatOps.maximumf (F := Ideal) (φ := .f32) (FloatOps.addf (F := Ideal) (φ := .f32) (a i) (val_main_v47 (F := Ideal) x3 i)) (val_main_call1_v0 (F := Ideal) i)
  rw [val_main_v47_apply, val_main_v46_apply, val_main_call1_v0_apply, val_main_call1_cst_apply,
    shapeCast_apply x3 h (Cert.KernelIdeal.Reg1.brow i) (idx_main_v46 (idx_main_v47 i))
      (by rewrite [Shape.rowMajor_val_one, Shape.rowMajor_val_two]; show (i 1).val = 0 * 16 + (i 1).val; omega)]

theorem v49_eq (x0 : (⟨S100000x5, .f32⟩ : BufTy).Contents (Elt Ideal)) (x1 : (⟨S2x3200000, .i32⟩ : BufTy).Contents (Elt Ideal)) (x2 : (⟨S5x16, .f32⟩ : BufTy).Contents (Elt Ideal))
    (x3 : (⟨S16, .f32⟩ : BufTy).Contents (Elt Ideal)) (h : S16.ShapeCasts S1x16) :
    val_main_v49 (F := Ideal) x0 x1 x2 x3 = Cert.KernelIdeal.Reg1.biasRelu (val_main_v45 (F := Ideal) x0 x1 x2) (shapeCast S1x16 x3 h) :=
  (biasRelu_row _ x3 h).symm

/-- The output bias: its one value cast to a [1, 1] array is the value broadcast over the rows. -/
theorem biasOut_row (a : (⟨S100000x1, .f32⟩ : BufTy).Contents (Elt Ideal)) (x5 : (⟨S1, .f32⟩ : BufTy).Contents (Elt Ideal))
    (h : S1.ShapeCasts S1x1) :
    Cert.KernelIdeal.Reg3.biasOut a (shapeCast S1x1 x5 h) = addf (F := Ideal) (s := S100000x1) (φ := .f32) a (val_main_v89 (F := Ideal) x5) := by
  funext i
  show FloatOps.addf (F := Ideal) (φ := .f32) (a i) (shapeCast S1x1 x5 h (Cert.KernelIdeal.Reg3.b00 i))
    = FloatOps.addf (F := Ideal) (φ := .f32) (a i) (val_main_v89 (F := Ideal) x5 i)
  rw [val_main_v89_apply, val_main_v88_apply,
    shapeCast_apply x5 h (Cert.KernelIdeal.Reg3.b00 i) (idx_main_v88 (idx_main_v89 i))
      (by rewrite [Shape.rowMajor_val_one, Shape.rowMajor_val_two]; show 0 = 0 * 1 + 0; omega)]

theorem v90_eq (x0 : (⟨S100000x5, .f32⟩ : BufTy).Contents (Elt Ideal)) (x1 : (⟨S2x3200000, .i32⟩ : BufTy).Contents (Elt Ideal)) (x2 : (⟨S5x16, .f32⟩ : BufTy).Contents (Elt Ideal))
    (x3 : (⟨S16, .f32⟩ : BufTy).Contents (Elt Ideal)) (x4 : (⟨S16x1, .f32⟩ : BufTy).Contents (Elt Ideal)) (x5 : (⟨S1, .f32⟩ : BufTy).Contents (Elt Ideal))
    (h : S1.ShapeCasts S1x1) :
    val_main_v90 (F := Ideal) x0 x1 x2 x3 x4 x5 = Cert.KernelIdeal.Reg3.biasOut (val_main_v87 (F := Ideal) x0 x1 x2 x3 x4) (shapeCast S1x1 x5 h) :=
  (biasOut_row _ x5 h).symm

end Cert.ReferenceIdeal.Stages

end
-- ==== Proof.KHost.lean ====
/-
  The kernel program's host operations, stretch by stretch. Between its four kernel regions the program
  computes on the host exactly what the reference computes: the edge lists with the self loops appended, the
  in-degrees, their inverse square roots (zero at a node without edges), each edge's normalisation, and per
  layer the aggregation (gather at the sources, scale, sum into the targets). Here the contents of the buffers
  that cross a boundary between stretches and regions are read off the fold of the program's operations and
  named by the reference's own stage functions, which are the same operations; a buffer that a stretch or a
  region does not write keeps what it held.
-/
import proofs.«162707_j31576599560907_1_alg».proof.Proof.Gen.KernelIdeal.Frame
import proofs.«162707_j31576599560907_1_alg».proof.Proof.RefStages
import Idealize.ShloMosaic.Lib.StableHlo.Run

set_option maxRecDepth 16384

noncomputable section

namespace Cert.KernelIdeal.HostChain

open Cert.KernelIdeal Cert.KernelIdeal.Gen Idealize.ShloMosaic Idealize.ShloMosaic.TcCoe Idealize.SL.Sem Idealize.ShloMosaic.StableHlo
open Cert.ReferenceIdeal.ReadP
open Cert.ReferenceIdeal.Stages (agg16 agg1)

variable {F : FTy → Type} [FloatOps F]
variable (m : (ℓ : Loc nD τ sig) → Buf (Elt F) ℓ) (ρ : Dev nD → PrngReg)

/-- The edge array as launched. -/
abbrev edges (c : Dev nD) : (⟨S2x3200000, .i32⟩ : BufTy).Contents (Elt F) := m ((c : Thread nD τ).loc main_arg1)

/-! ## The first stretch: edge lists, degrees, inverse square roots -/

theorem W1_v3 (c : Dev nD) : W1 m ρ c (Proc.devRef .tc main_v3) = val_main_v3 (F := F) (edges m c) := by
  show StableHlo.after hostOps0 (W0 m ρ c) (Proc.devRef .tc main_v3) = _
  after_results
  rfl
theorem W1_v6 (c : Dev nD) : W1 m ρ c (Proc.devRef .tc main_v6) = val_main_v6 (F := F) (edges m c) := by
  show StableHlo.after hostOps0 (W0 m ρ c) (Proc.devRef .tc main_v6) = _
  after_results
  rfl
theorem W1_v12 (c : Dev nD) : W1 m ρ c (Proc.devRef .tc main_v12) = val_main_v13 (F := F) (edges m c) := by
  show StableHlo.after hostOps0 (W0 m ρ c) (Proc.devRef .tc main_v12) = _
  after_results
  rfl
theorem W1_v15 (c : Dev nD) : W1 m ρ c (Proc.devRef .tc main_v15) = val_main_v16 (F := F) (edges m c) := by
  show StableHlo.after hostOps0 (W0 m ρ c) (Proc.devRef .tc main_v15) = _
  after_results
  rfl
theorem W1_cst3 (c : Dev nD) : W1 m ρ c (Proc.devRef .tc main_cst_3) = val_main_cst_3 (F := F) := by
  show StableHlo.after hostOps0 (W0 m ρ c) (Proc.devRef .tc main_cst_3) = _
  after_results
  rfl

/-! ## The call of `where`: the inverse square roots, zero where a node has no edge -/

theorem W2_v16 (c : Dev nD) : W2 m ρ c (Proc.devRef .tc main_v16) = val_main_v17 (F := F) (edges m c) := by
  have h12 := W1_v12 m ρ c
  have h15 := W1_v15 m ρ c
  have hc := W1_cst3 m ρ c
  show StableHlo.after hostOps0_1 (W1 m ρ c) (Proc.devRef .tc main_v16) = val_main_v17 (F := F) (edges m c)
  generalize W1 m ρ c = V at h12 h15 hc ⊢
  after_results
  rw [h12, h15, hc]
  rfl
theorem W2_v3 (c : Dev nD) : W2 m ρ c (Proc.devRef .tc main_v3) = val_main_v3 (F := F) (edges m c) := by
  have h := W1_v3 m ρ c
  show StableHlo.after hostOps0_1 (W1 m ρ c) (Proc.devRef .tc main_v3) = _
  generalize W1 m ρ c = V at h ⊢
  after_results
  exact h
theorem W2_v6 (c : Dev nD) : W2 m ρ c (Proc.devRef .tc main_v6) = val_main_v6 (F := F) (edges m c) := by
  have h := W1_v6 m ρ c
  show StableHlo.after hostOps0_1 (W1 m ρ c) (Proc.devRef .tc main_v6) = _
  generalize W1 m ρ c = V at h ⊢
  after_results
  exact h

/-! ## The third stretch: each edge's normalisation -/

theorem W3_v31 (c : Dev nD) : W3 m ρ c (Proc.devRef .tc main_v31) = val_main_v32 (F := F) (edges m c) := by
  have h16 := W2_v16 m ρ c
  have h3 := W2_v3 m ρ c
  have h6 := W2_v6 m ρ c
  show StableHlo.after hostOps0_2 (W2 m ρ c) (Proc.devRef .tc main_v31) = val_main_v32 (F := F) (edges m c)
  generalize W2 m ρ c = V at h16 h3 h6 ⊢
  after_results_simp
  rw [h16, h3, h6]
  unfold val_main_v32 val_main_v24 val_main_v31 val_main_v23 val_main_v30 val_main_v22 val_main_v29 val_main_v19 val_main_v26
    val_main_v21 val_main_v28 val_main_v18 val_main_v25 val_main_v20 val_main_v27 val_main_c val_main_c_4 val_main_c_5 val_main_c_6
  rfl
theorem W3_v3 (c : Dev nD) : W3 m ρ c (Proc.devRef .tc main_v3) = val_main_v3 (F := F) (edges m c) := by
  have h := W2_v3 m ρ c
  show StableHlo.after hostOps0_2 (W2 m ρ c) (Proc.devRef .tc main_v3) = _
  generalize W2 m ρ c = V at h ⊢
  after_results_simp
  exact h
theorem W3_v6 (c : Dev nD) : W3 m ρ c (Proc.devRef .tc main_v6) = val_main_v6 (F := F) (edges m c) := by
  have h := W2_v6 m ρ c
  show StableHlo.after hostOps0_2 (W2 m ρ c) (Proc.devRef .tc main_v6) = _
  generalize W2 m ρ c = V at h ⊢
  after_results_simp
  exact h

/-! ## The arguments reach the first region as launched: none of the three stretches writes one -/

theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results
theorem W3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results
theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results
theorem W3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results
theorem W3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results

/-! ## Across the first region: it writes only its result array -/

theorem W4_v3 (c : Dev nD) : W4 m ρ c (Proc.devRef .tc main_v3) = val_main_v3 (F := F) (edges m c) :=
  (W4_of_ne m ρ c main_v3 (by decide)).trans (W3_v3 m ρ c)
theorem W4_v6 (c : Dev nD) : W4 m ρ c (Proc.devRef .tc main_v6) = val_main_v6 (F := F) (edges m c) :=
  (W4_of_ne m ρ c main_v6 (by decide)).trans (W3_v6 m ρ c)
theorem W4_v31 (c : Dev nD) : W4 m ρ c (Proc.devRef .tc main_v31) = val_main_v32 (F := F) (edges m c) :=
  (W4_of_ne m ρ c main_v31 (by decide)).trans (W3_v31 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)

/-! ## The stretch between the first two regions: the first layer's aggregation, and the bias as a row -/

theorem W5_v45 (c : Dev nD) : W5 m ρ c (Proc.devRef .tc main_v45) = agg16 (F := F) (W4 m ρ c (Proc.devRef .tc main_v32)) (edges m c) := by
  have h3 := W4_v3 m ρ c
  have h6 := W4_v6 m ρ c
  have h31 := W4_v31 m ρ c
  show StableHlo.after hostOps1 (W4 m ρ c) (Proc.devRef .tc main_v45) = agg16 (F := F) (W4 m ρ c (Proc.devRef .tc main_v32)) (edges m c)
  generalize W4 m ρ c = V at h3 h6 h31 ⊢
  after_results_simp
  rw [h3, h6, h31]
  unfold agg16 val_main_v43 val_main_v44 val_main_v38 val_main_v41 val_main_v40 val_main_v37 val_main_v34 val_main_v36
    val_main_v33 val_main_v35 val_main_c_7 val_main_c_8 val_main_cst_9
  rfl
theorem W5_v46 (c : Dev nD) : W5 m ρ c (Proc.devRef .tc main_v46) = (shapeCast S1x16 (m ((c : Thread nD τ).loc main_arg3)) shapeCasts_S16_S1x16 : (⟨S1x16, .f32⟩ : BufTy).Contents (Elt F)) := by
  have h := W4_arg3 m ρ c
  show StableHlo.after hostOps1 (W4 m ρ c) (Proc.devRef .tc main_v46) = (shapeCast S1x16 (m ((c : Thread nD τ).loc main_arg3)) shapeCasts_S16_S1x16 : (⟨S1x16, .f32⟩ : BufTy).Contents (Elt F))
  generalize W4 m ρ c = V at h ⊢
  after_results_simp
  rw [h]
  rfl
theorem W5_v3 (c : Dev nD) : W5 m ρ c (Proc.devRef .tc main_v3) = val_main_v3 (F := F) (edges m c) := by
  have h := W4_v3 m ρ c
  show StableHlo.after hostOps1 (W4 m ρ c) (Proc.devRef .tc main_v3) = _
  generalize W4 m ρ c = V at h ⊢
  after_results_simp
  exact h
theorem W5_v6 (c : Dev nD) : W5 m ρ c (Proc.devRef .tc main_v6) = val_main_v6 (F := F) (edges m c) := by
  have h := W4_v6 m ρ c
  show StableHlo.after hostOps1 (W4 m ρ c) (Proc.devRef .tc main_v6) = _
  generalize W4 m ρ c = V at h ⊢
  after_results_simp
  exact h
theorem W5_v31 (c : Dev nD) : W5 m ρ c (Proc.devRef .tc main_v31) = val_main_v32 (F := F) (edges m c) := by
  have h := W4_v31 m ρ c
  show StableHlo.after hostOps1 (W4 m ρ c) (Proc.devRef .tc main_v31) = _
  generalize W4 m ρ c = V at h ⊢
  after_results_simp
  exact h
theorem W5_arg4 (c : Dev nD) : W5 m ρ c (Proc.devRef .tc main_arg4) = m ((c : Thread nD τ).loc main_arg4) := by
  have h := W4_arg4 m ρ c
  show StableHlo.after hostOps1 (W4 m ρ c) (Proc.devRef .tc main_arg4) = _
  generalize W4 m ρ c = V at h ⊢
  after_results_simp
  exact h
theorem W5_arg5 (c : Dev nD) : W5 m ρ c (Proc.devRef .tc main_arg5) = m ((c : Thread nD τ).loc main_arg5) := by
  have h := W4_arg5 m ρ c
  show StableHlo.after hostOps1 (W4 m ρ c) (Proc.devRef .tc main_arg5) = _
  generalize W4 m ρ c = V at h ⊢
  after_results_simp
  exact h

/-! ## Across the second and third regions -/

theorem W6_v3 (c : Dev nD) : W6 m ρ c (Proc.devRef .tc main_v3) = val_main_v3 (F := F) (edges m c) :=
  (W6_of_ne m ρ c main_v3 (by decide)).trans (W5_v3 m ρ c)
theorem W6_v6 (c : Dev nD) : W6 m ρ c (Proc.devRef .tc main_v6) = val_main_v6 (F := F) (edges m c) :=
  (W6_of_ne m ρ c main_v6 (by decide)).trans (W5_v6 m ρ c)
theorem W6_v31 (c : Dev nD) : W6 m ρ c (Proc.devRef .tc main_v31) = val_main_v32 (F := F) (edges m c) :=
  (W6_of_ne m ρ c main_v31 (by decide)).trans (W5_v31 m ρ c)
theorem W6_arg4 (c : Dev nD) : W6 m ρ c (Proc.devRef .tc main_arg4) = m ((c : Thread nD τ).loc main_arg4) :=
  (W6_of_ne m ρ c main_arg4 (by decide)).trans (W5_arg4 m ρ c)
theorem W6_arg5 (c : Dev nD) : W6 m ρ c (Proc.devRef .tc main_arg5) = m ((c : Thread nD τ).loc main_arg5) :=
  (W6_of_ne m ρ c main_arg5 (by decide)).trans (W5_arg5 m ρ c)

theorem W7_v3 (c : Dev nD) : W7 m ρ c (Proc.devRef .tc main_v3) = val_main_v3 (F := F) (edges m c) :=
  (W7_of_ne m ρ c main_v3 (by decide)).trans (W6_v3 m ρ c)
theorem W7_v6 (c : Dev nD) : W7 m ρ c (Proc.devRef .tc main_v6) = val_main_v6 (F := F) (edges m c) :=
  (W7_of_ne m ρ c main_v6 (by decide)).trans (W6_v6 m ρ c)
theorem W7_v31 (c : Dev nD) : W7 m ρ c (Proc.devRef .tc main_v31) = val_main_v32 (F := F) (edges m c) :=
  (W7_of_ne m ρ c main_v31 (by decide)).trans (W6_v31 m ρ c)
theorem W7_arg5 (c : Dev nD) : W7 m ρ c (Proc.devRef .tc main_arg5) = m ((c : Thread nD τ).loc main_arg5) :=
  (W7_of_ne m ρ c main_arg5 (by decide)).trans (W6_arg5 m ρ c)

/-! ## The stretch before the last region: the second layer's aggregation, and the bias as a [1, 1] array -/

theorem W8_v60 (c : Dev nD) : W8 m ρ c (Proc.devRef .tc main_v60) = agg1 (F := F) (W7 m ρ c (Proc.devRef .tc main_v48)) (edges m c) := by
  have h3 := W7_v3 m ρ c
  have h6 := W7_v6 m ρ c
  have h31 := W7_v31 m ρ c
  show StableHlo.after hostOps3 (W7 m ρ c) (Proc.devRef .tc main_v60) = agg1 (F := F) (W7 m ρ c (Proc.devRef .tc main_v48)) (edges m c)
  generalize W7 m ρ c = V at h3 h6 h31 ⊢
  after_results_simp
  rw [h3, h6, h31]
  unfold agg1 val_main_v85 val_main_v86 val_main_v81 val_main_v80 val_main_v77 val_main_v79
    val_main_v76 val_main_v78 val_main_c_19 val_main_c_20 val_main_cst_21
  rfl
theorem W8_v61 (c : Dev nD) : W8 m ρ c (Proc.devRef .tc main_v61) = (shapeCast S1x1 (m ((c : Thread nD τ).loc main_arg5)) shapeCasts_S1_S1x1 : (⟨S1x1, .f32⟩ : BufTy).Contents (Elt F)) := by
  have h := W7_arg5 m ρ c
  show StableHlo.after hostOps3 (W7 m ρ c) (Proc.devRef .tc main_v61) = (shapeCast S1x1 (m ((c : Thread nD τ).loc main_arg5)) shapeCasts_S1_S1x1 : (⟨S1x1, .f32⟩ : BufTy).Contents (Elt F))
  generalize W7 m ρ c = V at h ⊢
  after_results_simp
  rw [h]
  rfl

end Cert.KernelIdeal.HostChain

end
-- ==== Proof.KResult.lean ====
/-
  The kernel program's result as one function of its arguments. The program alternates host stretches and
  four kernel regions. Each region leaves in its result array one whole-array function of the two arrays it
  reads: the first the product x · W1, the second max(agg + b1, 0), the third the product h · W2, the fourth
  agg + b2; and each host stretch between them is the reference's own aggregation (gather at the sources, scale
  by the normalisation, sum into the targets) of what the region before it left. Read in order from the launch
  to the return, the contents of the buffers that cross each boundary are therefore the reference's stages:
  the first product, the first aggregation, the rectified hidden features, the second product, the second
  aggregation, and the output.
-/
import proofs.«162707_j31576599560907_1_alg».proof.Proof.KRun
import proofs.«162707_j31576599560907_1_alg».proof.Proof.KHost

set_option maxRecDepth 16384

noncomputable section

namespace Cert.KernelIdeal.Result

open Cert.KernelIdeal Cert.KernelIdeal.Gen Idealize.ShloMosaic Idealize.ShloMosaic.TcCoe Idealize.SL.Sem Idealize.ShloMosaic.StableHlo
open Cert.ReferenceIdeal.ReadP (val_main_v7 val_main_v45 val_main_v49 val_main_v50 val_main_v87 val_main_v90)
open Cert.ReferenceIdeal.Stages (v7_eq v45_eq v49_eq v50_eq v87_eq v90_eq)
open Cert.KernelIdeal.HostChain

variable (m : (ℓ : Loc nD τ sig) → Buf (Elt Ideal) ℓ) (ρ : Dev nD → PrngReg)

/-- The six arguments as launched, at their literal types. -/
abbrev arg0 (c : Dev nD) : (⟨S100000x5, .f32⟩ : BufTy).Contents (Elt Ideal) := m ((c : Thread nD τ).loc main_arg0)
abbrev arg1 (c : Dev nD) : (⟨S2x3200000, .i32⟩ : BufTy).Contents (Elt Ideal) := m ((c : Thread nD τ).loc main_arg1)
abbrev arg2 (c : Dev nD) : (⟨S5x16, .f32⟩ : BufTy).Contents (Elt Ideal) := m ((c : Thread nD τ).loc main_arg2)
abbrev arg3 (c : Dev nD) : (⟨S16, .f32⟩ : BufTy).Contents (Elt Ideal) := m ((c : Thread nD τ).loc main_arg3)
abbrev arg4 (c : Dev nD) : (⟨S16x1, .f32⟩ : BufTy).Contents (Elt Ideal) := m ((c : Thread nD τ).loc main_arg4)
abbrev arg5 (c : Dev nD) : (⟨S1, .f32⟩ : BufTy).Contents (Elt Ideal) := m ((c : Thread nD τ).loc main_arg5)

/-- After the first region: the first product. -/
theorem W4_v32 (c : Dev nD) : W4 m ρ c (Proc.devRef .tc main_v32) = val_main_v7 (F := Ideal) (arg0 m c) (arg2 m c) := by
  rw [v7_eq]
  refine (W4_arr m ρ c 2).trans ?_
  refine (Reg0.final (V3 m ρ) c).trans ?_
  show Reg0.rowsTimes (W3 m ρ c (Proc.devRef .tc main_arg0)) (W3 m ρ c (Proc.devRef .tc main_arg2)) = _
  rw [W3_arg0, W3_arg2]

/-- Before the second region: the first layer's aggregation. -/
theorem W5_v45_val (c : Dev nD) : W5 m ρ c (Proc.devRef .tc main_v45) = val_main_v45 (F := Ideal) (arg0 m c) (arg1 m c) (arg2 m c) := by
  rw [W5_v45, W4_v32, v45_eq]

/-- After the second region: the rectified hidden features. -/
theorem W6_v47 (c : Dev nD) : W6 m ρ c (Proc.devRef .tc main_v47) = val_main_v49 (F := Ideal) (arg0 m c) (arg1 m c) (arg2 m c) (arg3 m c) := by
  rw [v49_eq _ _ _ _ shapeCasts_S16_S1x16]
  refine (W6_arr m ρ c 2).trans ?_
  refine (Reg1.final (V5 m ρ) c).trans ?_
  show Reg1.biasRelu (W5 m ρ c (Proc.devRef .tc main_v45)) (W5 m ρ c (Proc.devRef .tc main_v46)) = _
  rw [W5_v45_val, W5_v46]

/-- After the third region: the second product. -/
theorem W7_v48 (c : Dev nD) : W7 m ρ c (Proc.devRef .tc main_v48) = val_main_v50 (F := Ideal) (arg0 m c) (arg1 m c) (arg2 m c) (arg3 m c) (arg4 m c) := by
  rw [v50_eq]
  refine (W7_arr m ρ c 2).trans ?_
  refine (Reg2.final (V6 m ρ) c).trans ?_
  show Reg2.rowsTimes (W6 m ρ c (Proc.devRef .tc main_v47)) (W6 m ρ c (Proc.devRef .tc main_arg4)) = _
  rw [W6_v47, W6_arg4]

/-- Before the last region: the second layer's aggregation. -/
theorem W8_v60_val (c : Dev nD) : W8 m ρ c (Proc.devRef .tc main_v60) = val_main_v87 (F := Ideal) (arg0 m c) (arg1 m c) (arg2 m c) (arg3 m c) (arg4 m c) := by
  rw [W8_v60, W7_v48, v87_eq]

/-- After the last region: the output. -/
theorem W9_v62 (c : Dev nD) : W9 m ρ c (Proc.devRef .tc main_v62) = val_main_v90 (F := Ideal) (arg0 m c) (arg1 m c) (arg2 m c) (arg3 m c) (arg4 m c) (arg5 m c) := by
  rw [v90_eq _ _ _ _ _ _ shapeCasts_S1_S1x1]
  refine (W9_arr m ρ c 2).trans ?_
  refine (Reg3.final (V8 m ρ) c).trans ?_
  show Reg3.biasOut (W8 m ρ c (Proc.devRef .tc main_v60)) (W8 m ρ c (Proc.devRef .tc main_v61)) = _
  rw [W8_v60_val, W8_v61]

/-- Every weakly fair execution of the program ends with the result array at the reference's output function of
    the launched arguments, the arguments unchanged. -/
theorem run : θ_run defs (onTc (τ := τ) (main (F := Ideal))) ⟨m, fun _ => 0, ρ⟩ (fun r => ∀ c : Dev nD,
      r.2.mem ((c.tc : Thread nD τ).loc main_v62) = val_main_v90 (F := Ideal) (arg0 m c) (arg1 m c) (arg2 m c) (arg3 m c) (arg4 m c) (arg5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W9_v62 m ρ c), (h c).2⟩) (Cert.KernelIdeal.Out.run_out m ρ)

end Cert.KernelIdeal.Result

end
-- ==== Proof.lean ====
/-
  A two-layer graph convolution over 100000 nodes and 3.2 million edges (plus one self loop per node), computed by
  a program of four kernel regions and the host operations between them, against the same network written with
  whole-array operations.

  Each layer is: transform the node features by a weight matrix; for every edge gather the transformed row of
  its source and scale it by the edge's normalisation 1/sqrt(deg(src)) · 1/sqrt(deg(dst)) (zero where a degree is
  zero); sum the scaled rows into the edges' targets; add the bias; after the first layer cut below at zero.
  The kernel program computes the two feature transforms and the two bias stages in regions that walk the nodes
  in 20 blocks of 5000 rows, and everything else (edge lists, degrees, normalisation, gather, scatter-add) with
  the very host operations the reference uses.

  Over the extended reals the two programs are the same function of the arguments:
  * a region's matrix product of a row block with the whole weight matrix into a zero accumulator is, entry by
    entry, the sum over the contracted index of the products, which is what the reference's whole-array product
    is; the narrowing of the operands to a 16-bit format before the product is the identity there; the row
    blocks tile the rows, so the region leaves the whole-array product (Proof/Reg0.lean, Proof/Reg2.lean);
  * a region's bias stage adds a [1, C] row broadcast over the block, the reference a length-C bias broadcast
    over the array: both read the bias at the entry's column (Proof/Reg1.lean, Proof/Reg3.lean,
    Proof/RefStages.lean);
  * the host operations between the regions are the reference's own aggregation, applied to what the region
    before left (Proof/KHost.lean); the normalisation, which the reference computes once per layer and the kernel
    program once, is one function of the edge array (Proof/RefStages.lean);
  * so the buffers that cross the boundaries of the kernel program hold, in order, the reference's stages, and
    the result array the reference's output (Proof/KResult.lean).
  No law of the extended reals beyond the identity of these sums is used, so finiteness of the inputs is never
  opened. The kernel program is printed without any rewrite, so its idealization has nothing to preserve.
-/
import proofs.«162707_j31576599560907_1_alg».proof.Defs
import proofs.«162707_j31576599560907_1_alg».proof.Proof.Gen.Kernel
import proofs.«162707_j31576599560907_1_alg».proof.Proof.Gen.Kernel.Skeleton
import proofs.«162707_j31576599560907_1_alg».proof.Proof.Gen.Kernel.Launch
import proofs.«162707_j31576599560907_1_alg».proof.Proof.Gen.Kernel.Points
import proofs.«162707_j31576599560907_1_alg».proof.Proof.Gen.Kernel.Frame
import proofs.«162707_j31576599560907_1_alg».proof.Proof.Gen.KernelIdeal
import proofs.«162707_j31576599560907_1_alg».proof.Proof.Gen.KernelIdeal.Skeleton
import proofs.«162707_j31576599560907_1_alg».proof.Proof.Gen.KernelIdeal.Launch
import proofs.«162707_j31576599560907_1_alg».proof.Proof.Gen.KernelIdeal.Points
import proofs.«162707_j31576599560907_1_alg».proof.Proof.Gen.KernelIdeal.Frame
import proofs.«162707_j31576599560907_1_alg».proof.Proof.Gen.ReferenceIdeal
import proofs.«162707_j31576599560907_1_alg».proof.Proof.Gen.Pre_finite_inputs
import proofs.«162707_j31576599560907_1_alg».proof.Proof.KResult
import Idealize.ShloMosaic.Adequacy
import Idealize.ShloMosaic.Init

noncomputable section

namespace Cert.Proof

open Idealize.ShloMosaic Idealize.SL.Sem

/-- The word-level program runs, faults nowhere and leaves its arguments as launched. -/
theorem frame_k : @Cert.frame_Kernel Cert.Kernel.Gen.facts Cert.Pre_finite_inputs.Gen.facts :=
  fun m ρ _ => Cert.Kernel.Gen.frame m ρ

/-- So does the program read at the extended reals. -/
theorem frame_ki : @Cert.frame_KernelIdeal Cert.KernelIdeal.Gen.facts Cert.Pre_finite_inputs.Gen.facts :=
  fun m ρ _ => Cert.KernelIdeal.Gen.frame m ρ

/-- The reference is host operations only: its run, the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.ValueP.run (F := Ideal) m ρ)

/-- From memories that agree on the arguments both programs end with the result array at the reference's output
    function of those arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v90_eq, (hagree c).1, (hagree c).2.1, (hagree c).2.2.1, (hagree c).2.2.2.1,
    (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
